-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S_ : Shape := ⟨0, ![]⟩

class Facts : Prop where
  bcast_S_S32x1024x128 : S_.BroadcastsInDim S32x1024x128 (![] : Fin 0 → Fin S32x1024x128.rank)
  reducesTo_S32x1024x128_S_d0_1_2 : S32x1024x128.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S32x1024x128 .f32) (main_arg1 : FVec F S32x1024x1024 .f32) (main_arg2 : FVec F S128x128 .f32) (main_arg3 : FVec F S128 .f32) : IVec S_ 1 :=
  let main_v0 : FVec F S32x1024x128 .f32 := Host.absf main_arg0
  let main_cst : FVec F S_ .f32 := constant S_ .f32 0x7F800000#32
  let main_v1 : FVec F S32x1024x128 .f32 := broadcastInDim S32x1024x128 ![] bcast_S_S32x1024x128 main_cst
  let main_v2 : IVec S32x1024x128 1 := cmpf .olt main_v0 main_v1
  let main_c : IVec S_ 1 := constantI S_ 1 1#1
  let main_v3 : IVec S_ 1 := (fun x v => Host.reduce IntOp.andi x v reducesTo_S32x1024x128_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S1x128 : Shape := ⟨2, ![1, 128]⟩
abbrev S1x1024x128 : Shape := ⟨3, ![1, 1024, 128]⟩
abbrev S1x1024x1024 : Shape := ⟨3, ![1, 1024, 1024]⟩
abbrev S1024x128 : Shape := ⟨2, ![1024, 128]⟩
abbrev S1024x1024 : Shape := ⟨2, ![1024, 1024]⟩

abbrev nBuf : Space → Nat
  | .hbm => 6
  | .vmem => 8
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S32x1024x128, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x1024, .f32⟩
  | .local _ .vmem, ⟨3, _⟩ => ⟨S1x1024x1024, .f32⟩
  | .local _ .vmem, ⟨4, _⟩ => ⟨S128x128, .f32⟩
  | .local _ .vmem, ⟨5, _⟩ => ⟨S1x128, .f32⟩
  | .local _ .vmem, ⟨6, _⟩ => ⟨S1x1024x128, .f32⟩
  | .local _ .vmem, ⟨7, _⟩ => ⟨S1x1024x128, .f32⟩
  | _, _ => ⟨S32x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S1024x128 : S1x128.Broadcasts S1024x128
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x128_S1x1024x128 : S1024x128.ShapeCasts S1x1024x128
  dot_S1024x128_S128x128_S1024x128_1_0_0_1_n_n_wf : DotDims.WF S1024x128 S128x128 S1024x128 [1] [0] [0] [1] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S32x1024x128.size a
  hwx0_0 : ∀ i : grid0.Coords, EltTy.bits .f32 = 32 ∨ (Rect.block (s := S32x1024x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x128.size a ≤ S32x1024x128.size a
  hwx0_4 : ∀ i : grid0.Coords, EltTy.bits .f32 = 32 ∨ (Rect.block (s := S32x1024x128) S1x1024x128.size (cc0_transform_4 i) (hinb0_4 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x128 : Shape := ⟨3, ![32, 1024, 128]⟩
abbrev S32x1024x1024 : Shape := ⟨3, ![32, 1024, 1024]⟩
abbrev S128x128 : Shape := ⟨2, ![128, 128]⟩
abbrev S128 : Shape := ⟨1, ![128]⟩
abbrev S1x1x128 : Shape := ⟨3, ![1, 1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32x1024x128, .f32⟩
  | .hbm, ⟨1, _⟩ => ⟨S32x1024x1024, .f32⟩
  | .hbm, ⟨2, _⟩ => ⟨S128x128, .f32⟩
  | .hbm, ⟨3, _⟩ => ⟨S128, .f32⟩
  | .hbm, ⟨4, _⟩ => ⟨S32x1024x128, .f32⟩
  | .hbm, ⟨5, _⟩ => ⟨S1x1x128, .f32⟩
  | .hbm, ⟨6, _⟩ => ⟨S32x1024x128, .f32⟩
  | .hbm, ⟨7, _⟩ => ⟨S32x1024x128, .f32⟩
  | .hbm, ⟨8, _⟩ => ⟨S32x1024x128, .f32⟩
  | .hbm, ⟨9, _⟩ => ⟨S32x1024x128, .f32⟩
  | .hbm, ⟨10, _⟩ => ⟨S_, .f32⟩
  | .hbm, ⟨11, _⟩ => ⟨S32x1024x128, .f32⟩
  | .hbm, ⟨12, _⟩ => ⟨S32x1024x128, .f32⟩
  | _, _ => ⟨S32x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  dot_S32x1024x128_S128x128_S32x1024x128_2_0_01_1_n_n_wf : DotDims.WF S32x1024x128 S128x128 S32x1024x128 [2] [0] [0, 1] [1] [] []
  dot_S32x1024x1024_S32x1024x128_S32x1024x128_2_1_1_2_0_0_wf : DotDims.WF S32x1024x1024 S32x1024x128 S32x1024x128 [2] [1] [1] [2] [0] [0]

variable [Facts₀]

def dot_S32x1024x128_S128x128_S32x1024x128_2_0_01_1_n_n : DotDims S32x1024x128 S128x128 S32x1024x128 where
  lhsContracting := [2]
  rhsContracting := [0]
  lhsNonContracting := [0, 1]
  rhsNonContracting := [1]
  lhsBatch := []
  rhsBatch := []
  wf := dot_S32x1024x128_S128x128_S32x1024x128_2_0_01_1_n_n_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf

class Facts : Prop extends Facts₀ where

variable [Facts]
-- ==== Proof.LayerSpec.lean ====
/-
  The graph-convolution layer as ONE function of its four argument arrays, over the extended reals.

  With x : [32, 1024, 128] (node features per batch), adj : [32, 1024, 1024] (adjacency per batch),
  W : [128, 128] and b : [128], at batch t, node n and output feature g:

      hidden t k g = (Σ_{f < 128} x[t, k, f] · W[f, g]) + b[g]
      layer  t n g = max ((Σ_{k < 1024} adj[t, n, k] · hidden t k g) + x[t, n, g]) 0

  Both programs compute exactly this expression, each sum taken over the contracted axis in the same
  direction, so no law of the extended reals beyond the definitions is needed to join them: nothing
  here asks the inputs to be finite.
-/
import Idealize.ShloMosaic.PureOps.Ideal
import Idealize.ShloMosaic.Lib.ValueIdx

noncomputable section

namespace Cert.Gcn

open Idealize.ShloMosaic Idealize.ShloMosaic.ValueIdx

/-- The four argument shapes, literally. -/
abbrev SX : Shape := ⟨3, ![32, 1024, 128]⟩
abbrev SA : Shape := ⟨3, ![32, 1024, 1024]⟩
abbrev SW : Shape := ⟨2, ![128, 128]⟩
abbrev SB : Shape := ⟨1, ![128]⟩

/-- The linear map with its bias: feature g of node k in batch t after x · W + b. -/
def hidden (x : SX.Idx → EReal) (W : SW.Idx → EReal) (b : SB.Idx → EReal)
    (t : Fin 32) (k : Fin 1024) (g : Fin 128) : EReal :=
  (∑ f : Fin 128, x (ix3 t k f) * W (ix2 f g)) + b (ix1 g)

/-- Neighbour aggregation, the residual and the rectifier, at coordinates. -/
def layerAt (x : SX.Idx → EReal) (adj : SA.Idx → EReal) (W : SW.Idx → EReal) (b : SB.Idx → EReal)
    (t : Fin 32) (n : Fin 1024) (g : Fin 128) : EReal :=
  max ((∑ k : Fin 1024, adj (ix3 t n k) * hidden x W b t k g) + x (ix3 t n g)) 0

/-- The layer's output array. -/
def layer (x : SX.Idx → EReal) (adj : SA.Idx → EReal) (W : SW.Idx → EReal) (b : SB.Idx → EReal) :
    SX.Idx → EReal :=
  fun i => layerAt x adj W b (i 0) (i 1) (i 2)

theorem layer_ix3 (x : SX.Idx → EReal) (adj : SA.Idx → EReal) (W : SW.Idx → EReal) (b : SB.Idx → EReal)
    (t : Fin 32) (n : Fin 1024) (g : Fin 128) :
    layer x adj W b (ix3 t n g) = layerAt x adj W b t n g := rfl

end Cert.Gcn

end
-- ==== Proof.LayerReference.lean ====
/-
  The reference program's result is the layer of LayerSpec.lean.

  The reference is two matrix products, two sums and a maximum on the host:
    v0 = x · W (contracting x's last axis with W's first), v3 = v0 + b broadcast over batch and node,
    v4 = adj · v3 batched over the first axis (contracting adj's last axis with v3's node axis),
    v5 = v4 + x, v6 = max v5 0.
  Read at an index (t, n, g), each product is the sum over its contracted coordinate of the operands'
  entries, which is literally the specification's two sums; the bias read through its two broadcasts is
  b[g]; the rectifier's zero is the zero word.
-/
import proofs.«121639_j1460288881131_1_alg».proof.Proof.Gen.ReferenceIdeal.Read
import proofs.«121639_j1460288881131_1_alg».proof.Proof.LayerSpec

noncomputable section

namespace Cert.Gcn.Reference

open Idealize.ShloMosaic Idealize.ShloMosaic.ValueIdx Cert.ReferenceIdeal Cert.ReferenceIdeal.Read Cert.Gcn

/-- adj's entry the second product reads: row (t, n), contracted coordinate k. -/
theorem adj_index (t : Fin 32) (n : Fin 1024) (g : Fin 128) (k : Fin 1024) : lidx_main_v4 (ix3 t n g) k = ix3 t n k :=
  funext fun a => Fin.ext (by match a with | ⟨0, _⟩ => rfl | ⟨1, _⟩ => rfl | ⟨2, _⟩ => rfl)

/-- the hidden array's entry the second product reads: batch t, node k, feature g. -/
theorem hidden_index (t : Fin 32) (n : Fin 1024) (g : Fin 128) (k : Fin 1024) : ridx_main_v4 (ix3 t n g) k = ix3 t k g :=
  funext fun a => Fin.ext (by match a with | ⟨0, _⟩ => rfl | ⟨1, _⟩ => rfl | ⟨2, _⟩ => rfl)

/-- x's entry the first product reads. -/
theorem x_index (t : Fin 32) (k : Fin 1024) (g f : Fin 128) : lidx_main_v0 (ix3 t k g) f = ix3 t k f :=
  funext fun a => Fin.ext (by match a with | ⟨0, _⟩ => rfl | ⟨1, _⟩ => rfl | ⟨2, _⟩ => rfl)

/-- W's entry the first product reads. -/
theorem w_index (t : Fin 32) (k : Fin 1024) (g f : Fin 128) : ridx_main_v0 (ix3 t k g) f = ix2 f g :=
  funext fun a => Fin.ext (by match a with | ⟨0, _⟩ => rfl | ⟨1, _⟩ => rfl)

/-- the bias entry read through the two broadcasts. -/
theorem b_index (t : Fin 32) (k : Fin 1024) (g : Fin 128) : idx_main_v1 (idx_main_v2 (ix3 t k g)) = ix1 g :=
  funext fun a => Fin.ext (by match a with | ⟨0, _⟩ => rfl)

/-- The reference's x · W + b at (t, k, g) is the specification's hidden feature. -/
theorem hidden_eq (x0 : SX.Idx → EReal) (x2 : SW.Idx → EReal) (x3 : SB.Idx → EReal)
    (t : Fin 32) (k : Fin 1024) (g : Fin 128) :
    val_main_v3 (F := Ideal) x0 x2 x3 (ix3 t k g) = hidden x0 x2 x3 t k g := by
  rw [val_main_v3_apply, val_main_v0_apply, val_main_v2_apply, val_main_v1_apply, b_index]
  simp only [x_index, w_index, Ideal.addf_def]
  rfl

/-- The reference's result array is the layer. -/
theorem result_eq (x0 : SX.Idx → EReal) (x1 : SA.Idx → EReal) (x2 : SW.Idx → EReal) (x3 : SB.Idx → EReal) :
    val_main_v6 (F := Ideal) x0 x1 x2 x3 = layer x0 x1 x2 x3 := by
  funext i
  obtain ⟨t, n, g, rfl⟩ : ∃ (t : Fin 32) (n : Fin 1024) (g : Fin 128), i = ix3 t n g := ⟨i 0, i 1, i 2, eq_ix3 i⟩
  rw [val_main_v6_apply, val_main_v5_apply, val_main_v4_apply, val_main_call0_v0_apply, val_main_call0_cst_apply,
    layer_ix3]
  simp only [adj_index, hidden_index, hidden_eq, Ideal.addf_def, Ideal.maximumf_def, Ideal.ofBits_def,
    Ideal.ofBits_zero_f32]
  rfl

end Cert.Gcn.Reference

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LayerBody.lean ====
/-
  What the kernel body stores, read at one entry of its output block.

  At a grid point the body holds one batch: the block v0 : [1, 1024, 128] of x, the block v10 : [1, 1024, 1024]
  of adj, all of W as v2 : [128, 128] and the bias as a row v3 : [1, 128]. It forms
      h = v0 · v2 + v3 (the row stretched over the 1024 nodes),   agg = v10 · h,   out = max (agg + v0) 0,
  every product into a zero accumulator with operands narrowed to bf16, which is the identity on the
  extended reals. Read at (u, n, g) each product is the sum over its contracted coordinate, so the stored
  value is
      max ((Σ_k v10[0, n, k] · ((Σ_f v0[0, k, f] · v2[f, g]) + v3[0, g])) + v0[0, n, g]) 0.
-/
import proofs.«121639_j1460288881131_1_alg».proof.Proof.Gen.KernelIdeal.Skeleton
import proofs.«121639_j1460288881131_1_alg».proof.Proof.LibDense
import Idealize.ShloMosaic.Lib.ValueLayout

noncomputable section

namespace Cert.Gcn.Body

open Idealize.ShloMosaic Idealize.ShloMosaic.ValueIdx Cert.KernelIdeal Cert.KernelIdeal.Gen Cert.Dense

/-- The hidden features of the block, at node k and feature g: x's block times W, plus the bias row. -/
theorem hidden_apply (v0 : Vec Ideal S1x1024x128 .f32) (v2 : Vec Ideal S128x128 .f32) (v3 : Vec Ideal S1x128 .f32)
    (k : Fin 1024) (g : Fin 128) :
    addf (F := Ideal) (matmul (F := Ideal) dot_S1024x128_S128x128_S1024x128_1_0_0_1_n_n none
          (truncf .bf16 (shapeCast S1024x128 v0 shapeCasts_S1x1024x128_S1024x128) bitsLt_bf16_f32)
          (truncf .bf16 v2 bitsLt_bf16_f32) (constant (F := Ideal) S1024x128 .f32 0x00000000#32))
        (broadcastTo S1024x128 (shapeCast S1x128 v3 shapeCasts_S1x128_S1x128) broadcasts_S1x128_S1024x128) (ix2 k g)
      = (∑ f : Fin 128, v0 (ix3 (0 : Fin 1) k f) * v2 (ix2 f g)) + v3 (ix2 (0 : Fin 1) g) := by
  rw [addf_apply, matmul_zero_plain_apply _ rfl rfl rfl rfl rfl rfl, broadcastTo_1b_ab_apply, shapeCast_self]
  refine congrArg (· + v3 (ix2 (0 : Fin 1) g)) (Finset.sum_congr rfl fun f _ => ?_)
  rw [truncf_apply, truncf_apply, shapeCast_1ab_ab_apply]

/-- The body's stored value at (u, n, g) of its output block. -/
theorem payload_apply (v0 : Vec Ideal S1x1024x128 .f32) (v2 : Vec Ideal S128x128 .f32) (v3 : Vec Ideal S1x128 .f32)
    (v10 : Vec Ideal S1x1024x1024 .f32) (u : Fin 1) (n : Fin 1024) (g : Fin 128) :
    k0_pay1 (F := Ideal) v0 v2 v3 v10 (ix3 u n g)
      = max ((∑ k : Fin 1024, v10 (ix3 (0 : Fin 1) n k)
                * ((∑ f : Fin 128, v0 (ix3 (0 : Fin 1) k f) * v2 (ix2 f g)) + v3 (ix2 (0 : Fin 1) g)))
              + v0 (ix3 (0 : Fin 1) n g)) 0 := by
  unfold k0_pay1
  rw [shapeCast_ab_1ab_apply, kernel_relu_apply, addf_apply, shapeCast_1ab_ab_apply,
    matmul_zero_plain_apply _ rfl rfl rfl rfl rfl rfl]
  refine congrArg (fun s => max (s + v0 (ix3 (0 : Fin 1) n g)) 0) (Finset.sum_congr rfl fun k _ => ?_)
  rw [truncf_apply, truncf_apply, shapeCast_1ab_ab_apply, hidden_apply]

end Cert.Gcn.Body

end
-- ==== Proof.LayerBlocks.lean ====
/-
  From the blocks the kernel writes to its whole output array.

  The grid has 32 points, one per batch. At point t the pipeline stages batch t of x (block index (t, 0, 0) of
  blocks [1, 1024, 128]) and of adj (blocks [1, 1024, 1024]), all of W, and the bias row — the [128] argument
  laid out as [1, 128] by the host before the call — and writes back block (t, 0, 0) of the output. An entry
  (u, n, g) of a block at point t is the entry (t, n, g) of its array, so what point t writes back is batch t
  of the layer of LayerSpec.lean, by the body's value of LayerBody.lean. The 32 blocks cover the output array
  (entry i lies in the block of point i₀), hence the array after the run is the layer of the four arguments.
-/
import proofs.«121639_j1460288881131_1_alg».proof.Proof.Gen.KernelIdeal.Value
import proofs.«121639_j1460288881131_1_alg».proof.Proof.LayerSpec
import proofs.«121639_j1460288881131_1_alg».proof.Proof.LayerBody
import Idealize.ShloMosaic.Lib.StableHlo.Run

set_option maxRecDepth 16384

noncomputable section

namespace Cert.Gcn.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Gcn

variable (m : (ℓ : Loc nD τ sig) → Buf (Elt Ideal) ℓ) (ρ : Dev nD → PrngReg)

/-- A grid point as a batch number. -/
abbrev batch (t : Fin cfg0.N) : Fin 32 := ⟨t.val, by have h : cfg0.N = 32 := N_0; have := t.isLt; omega⟩

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: the three batched windows sit at block (t, 0, 0), the two resident
    ones at block (0, 0). -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The bias row the region finds: the [128] argument laid out as [1, 128] by the host. -/
theorem bias_row (c : Dev nD) :
    (V m c main_v0 : S1x128.Idx → EReal)
      = shapeCast S1x128 (m ((c : Thread nD τ).loc main_arg3)) shapeCasts_S128_S1x128 := by
  dsimp only [Gen.V, Gen.hostOps0]; after_results; rfl

/-- x's block at point t reads batch t of x. -/
theorem x_block (c : Dev nD) (t : Fin cfg0.N) (k : Fin 1024) (f : Fin 128) :
    (iblk m c 0 t : Vec Ideal S1x1024x128 .f32) (ix3 (0 : Fin 1) k f) = V m c main_arg0 (ix3 (batch t) k f) := by
  obtain ⟨e0, e1, e2, -⟩ := index_facts t
  show V m c main_arg0 (((cfg0.win 0).blk t).view.emb (ix3 (0 : Fin 1) k f)) = _
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 1024 + 1 * k.val = k.val; omega
  | ⟨2, _⟩ => show win0_0.index t (2 : Fin 3) * 128 + 1 * f.val = f.val; omega

/-- adj's block at point t reads batch t of adj. -/
theorem adj_block (c : Dev nD) (t : Fin cfg0.N) (n k : Fin 1024) :
    (iblk m c 1 t : Vec Ideal S1x1024x1024 .f32) (ix3 (0 : Fin 1) n k) = V m c main_arg1 (ix3 (batch t) n k) := by
  obtain ⟨-, -, -, e0, e1, e2, -⟩ := index_facts t
  show V m c main_arg1 (((cfg0.win 1).blk t).view.emb (ix3 (0 : Fin 1) n k)) = _
  refine congrArg (V m c main_arg1) (funext fun a => Fin.ext ?_)
  match a with
  | ⟨0, _⟩ => show win0_1.index t (0 : Fin 3) * 1 + 1 * 0 = t.val; omega
  | ⟨1, _⟩ => show win0_1.index t (1 : Fin 3) * 1024 + 1 * n.val = n.val; omega
  | ⟨2, _⟩ => show win0_1.index t (2 : Fin 3) * 1024 + 1 * k.val = k.val; omega

/-- W's block at any point is all of W. -/
theorem w_block (c : Dev nD) (t : Fin cfg0.N) (f g : Fin 128) :
    (iblk m c 2 t : Vec Ideal S128x128 .f32) (ix2 f g) = V m c main_arg2 (ix2 f g) := by
  obtain ⟨-, -, -, -, -, -, e0, e1, -⟩ := index_facts t
  show V m c main_arg2 (((cfg0.win 2).blk t).view.emb (ix2 f g)) = _
  refine congrArg (V m c main_arg2) (funext fun a => Fin.ext ?_)
  match a with
  | ⟨0, _⟩ => show win0_2.index t (0 : Fin 2) * 128 + 1 * f.val = f.val; omega
  | ⟨1, _⟩ => show win0_2.index t (1 : Fin 2) * 128 + 1 * g.val = g.val; omega

/-- The bias block at any point is the bias argument's entry g. -/
theorem b_block (c : Dev nD) (t : Fin cfg0.N) (g : Fin 128) :
    (iblk m c 3 t : Vec Ideal S1x128 .f32) (ix2 (0 : Fin 1) g) = m ((c : Thread nD τ).loc main_arg3) (ix1 g) := by
  obtain ⟨-, -, -, -, -, -, -, -, e0, e1, -⟩ := index_facts t
  have hb : (iblk m c 3 t : Vec Ideal S1x128 .f32) (ix2 (0 : Fin 1) g) = V m c main_v0 (ix2 (0 : Fin 1) g) := by
    show V m c main_v0 (((cfg0.win 3).blk t).view.emb (ix2 (0 : Fin 1) g)) = _
    refine congrArg (V m c main_v0) (funext fun a => Fin.ext ?_)
    match a with
    | ⟨0, _⟩ => show win0_3.index t (0 : Fin 2) * 1 + 1 * 0 = 0; omega
    | ⟨1, _⟩ => show win0_3.index t (1 : Fin 2) * 128 + 1 * g.val = g.val; omega
  rw [hb, bias_row, shapeCast_a_1a_apply]

/-- Entry (u, n, g) of the output block at point t is entry (t, n, g) of the output array. -/
theorem out_index (t : Fin cfg0.N) (u : Fin 1) (n : Fin 1024) (g : Fin 128) :
    ((cfg0.win 4).blk t).view.emb (ix3 u n g) = (ix3 (batch t) n g : S32x1024x128.Idx) := by
  obtain ⟨-, -, -, -, -, -, -, -, -, -, e0, e1, e2⟩ := index_facts t
  have hu : u.val = 0 := by omega
  refine funext fun a => Fin.ext ?_
  match a with
  | ⟨0, _⟩ => show win0_4.index t (0 : Fin 3) * 1 + 1 * u.val = t.val; omega
  | ⟨1, _⟩ => show win0_4.index t (1 : Fin 3) * 1024 + 1 * n.val = n.val; omega
  | ⟨2, _⟩ => show win0_4.index t (2 : Fin 3) * 128 + 1 * g.val = g.val; omega

/-- WHAT POINT t WRITES BACK is block t of the layer of the arrays the region finds. -/
theorem flushed_eq (c : Dev nD) (t : Fin cfg0.N) :
    (dats m 0 c).flushed 4 t = ((cfg0.win 4).blk t).view.read (Elt Ideal)
      (layer (V m c main_arg0) (V m c main_arg1) (V m c main_arg2) (m ((c : Thread nD τ).loc main_arg3))) := by
  rw [Cert.KernelIdeal.Value.flushed4]
  unfold out0_4
  rw [View.canon_unit_zero zeros3]
  simp only [View.ld_unit_zero (S := S1x1024x128) zeros3, View.ld_unit_zero (S := S1x1024x1024) zeros3,
    View.ld_unit_zero (S := S128x128) zeros2, View.ld_unit_zero (S := S1x128) zeros2]
  funext j
  obtain ⟨u, n, g, rfl⟩ : ∃ (u : Fin 1) (n : Fin 1024) (g : Fin 128), j = ix3 u n g := ⟨j 0, j 1, j 2, eq_ix3 j⟩
  show k0_pay1 (F := Ideal) (iblk m c 0 t) (iblk m c 2 t) (iblk m c 3 t) (iblk m c 1 t) (ix3 u n g)
    = layer (V m c main_arg0) (V m c main_arg1) (V m c main_arg2) (m ((c : Thread nD τ).loc main_arg3))
        (((cfg0.win 4).blk t).view.emb (ix3 u n g))
  rw [out_index, layer_ix3]
  refine (Body.payload_apply (iblk m c 0 t) (iblk m c 2 t) (iblk m c 3 t) (iblk m c 1 t) u n g).trans ?_
  unfold layerAt hidden
  simp only [x_block, adj_block, w_block, b_block]

/-- An index of the output array is in point t's block iff each coordinate is in the block's range. -/
theorem mem_block (t : Fin cfg0.N) (i : S32x1024x128.Idx) :
    i ∈ ((cfg0.win 4).blk t).view.set ↔ ∀ a : Fin 3, win0_4.index t a * S1x1024x128.size a ≤ (i a).val
      ∧ (i a).val < win0_4.index t a * S1x1024x128.size a + S1x1024x128.size a := by
  show i ∈ ((View.whole main_v1).slice (win0_4.rect t)).set ↔ _
  rw [View.set_slice_whole, Rect.mem_set_unit]
  exact Iff.rfl

/-- The 32 blocks cover the output array: entry i lies in the block of the point its batch names. -/
theorem cover (i : S32x1024x128.Idx) :
    ∃ t : Fin cfg0.N, (cfg0.win 4).flush t = true ∧ i ∈ ((cfg0.win 4).blk t).view.set := by
  have hN : cfg0.N = 32 := N_0
  have hi0 : (i 0).val < 32 := (i 0).isLt
  have hi1 : (i 1).val < 1024 := (i 1).isLt
  have hi2 : (i 2).val < 128 := (i 2).isLt
  obtain ⟨t, ht⟩ : ∃ t : Fin cfg0.N, t.val = (i 0).val := ⟨⟨(i 0).val, by omega⟩, rfl⟩
  refine ⟨t, flush0_4 t, ?_⟩
  rw [mem_block]
  obtain ⟨-, -, -, -, -, -, -, -, -, -, e0, e1, e2⟩ := index_facts t
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 128 ≤ (i 2).val ∧ (i 2).val < win0_4.index t (2 : Fin 3) * 128 + 128; omega

/-- THE OUTPUT ARRAY after the run is the layer of the four arguments as launched. -/
theorem final (c : Dev nD) :
    (dats m 0 c).arrAt 4 cfg0.N = layer (m ((c : Thread nD τ).loc main_arg0)) (m ((c : Thread nD τ).loc main_arg1))
      (m ((c : Thread nD τ).loc main_arg2)) (m ((c : Thread nD τ).loc main_arg3)) := by
  rw [← V_main_arg0 m c, ← V_main_arg1 m c, ← V_main_arg2 m c]
  exact (dats m 0 c).arrAt_eq_of_cover 4 _ (fun t _ => flushed_eq m c t) cover

/-- The kernel's run: every weakly fair execution ends with the output array at the layer of the arguments and the
    arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0))
          (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Gcn.Blocks

end
-- ==== Proof.lean ====
/-
  A graph-convolution layer, kernel against reference: out = max (adj · (x · W + b) + x) 0, batch by batch.

  The kernel runs one grid point per batch: it stages batch t of x and adj, all of W and the bias row,
  forms h = x_t · W + b and adj_t · h with bf16 operands into zero accumulators, adds x_t, takes the maximum
  with zero and writes batch t of the output. The reference does the same with two general products on the
  host. Over the extended reals narrowing to bf16 is the identity and each product, read at an entry, is the
  sum over its contracted coordinate, so both programs compute, at (t, n, g),

      max ((Σ_{k<1024} adj[t,n,k] · ((Σ_{f<128} x[t,k,f] · W[f,g]) + b[g])) + x[t,n,g]) 0

  with the two sums in the same direction on both sides: no algebraic law joins them, only the reading of
  each operation at an index, and the inputs' finiteness is never used.

  The parts: LayerSpec.lean states that function; LayerReference.lean reads the reference's result as it;
  LayerBody.lean reads the kernel body's stored block at an entry; LayerBlocks.lean shows that what grid
  point t writes back is batch t of the function and that the 32 blocks cover the output array. Here the
  two runs are set side by side. The three frames are the programs' runs with the results dropped, and the
  idealized kernel is the kernel's own text read over the extended reals (the rewrite ledger is empty).
-/
import proofs.«121639_j1460288881131_1_alg».proof.Defs
import proofs.«121639_j1460288881131_1_alg».proof.Proof.Gen.Kernel
import proofs.«121639_j1460288881131_1_alg».proof.Proof.Gen.Kernel.Skeleton
import proofs.«121639_j1460288881131_1_alg».proof.Proof.Gen.Kernel.Launch
import proofs.«121639_j1460288881131_1_alg».proof.Proof.Gen.Kernel.Points
import proofs.«121639_j1460288881131_1_alg».proof.Proof.Gen.Kernel.Frame
import proofs.«121639_j1460288881131_1_alg».proof.Proof.Gen.KernelIdeal
import proofs.«121639_j1460288881131_1_alg».proof.Proof.Gen.KernelIdeal.Skeleton
import proofs.«121639_j1460288881131_1_alg».proof.Proof.Gen.KernelIdeal.Launch
import proofs.«121639_j1460288881131_1_alg».proof.Proof.Gen.KernelIdeal.Points
import proofs.«121639_j1460288881131_1_alg».proof.Proof.Gen.KernelIdeal.Frame
import proofs.«121639_j1460288881131_1_alg».proof.Proof.Gen.ReferenceIdeal
import proofs.«121639_j1460288881131_1_alg».proof.Proof.Gen.Pre_finite_inputs
import proofs.«121639_j1460288881131_1_alg».proof.Proof.Gen.KernelIdeal.Value
import proofs.«121639_j1460288881131_1_alg».proof.Proof.Gen.ReferenceIdeal.Run
import proofs.«121639_j1460288881131_1_alg».proof.Proof.Gen.ReferenceIdeal.Read
import proofs.«121639_j1460288881131_1_alg».proof.Proof.LayerSpec
import proofs.«121639_j1460288881131_1_alg».proof.Proof.LayerReference
import proofs.«121639_j1460288881131_1_alg».proof.Proof.LayerBlocks
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the four arguments both programs end with the output at the layer of those
    arguments: the kernel's array by its blocks, the reference's by its operations read at an index. -/
theorem algebraic : Cert.algebraic_KernelIdeal_ReferenceIdeal := by
  intro m ρ m' ρ' _ hagree
  refine ⟨fun c => Cert.Gcn.layer (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.Gcn.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Gcn.Reference.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
